-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1000000x8 : Shape := ⟨2, ![1000000, 8]⟩
abbrev S1048576 : Shape := ⟨1, ![1048576]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S262144 .f32) (main_arg1 : FVec F S262144 .f32) (main_arg2 : IVec S1000000x8 32) (main_arg3 : IVec S1000000x8 32) (main_arg4 : IVec S1048576 32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 4293967296#32
  let main_v9 : IVec S1048576 32 := broadcastInDim S1048576 ![] bcast_S_S1048576 main_c_2
  let main_v10 : IVec S1048576 1 := cmpi .sge main_arg4 main_v9
  let main_c_3 : IVec S_ 32 := constantI S_ 32 1000000#32
  let main_v11 : IVec S1048576 32 := broadcastInDim S1048576 ![] bcast_S_S1048576 main_c_3
  let main_v12 : IVec S1048576 1 := cmpi .slt main_arg4 main_v11
  let main_v13 : IVec S1048576 1 := andi main_v10 main_v12
  let main_c_4 : IVec S_ 1 := constantI S_ 1 1#1
  let main_v14 : IVec S_ 1 := (fun x v => Host.reduce IntOp.andi x v reducesTo_S1048576_S_d0 h_S_) main_v13 main_c_4
  let main_v15 : IVec S_ 1 := andi main_v8 main_v14
  main_v15
-- ==== Kernel.lean ====
abbrev S262144 : Shape := ⟨1, ![262144]⟩
abbrev S1000000x8 : Shape := ⟨2, ![1000000, 8]⟩
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x8 : Shape := ⟨2, ![1048576, 8]⟩
abbrev S8 : Shape := ⟨1, ![8]⟩
abbrev S1048576x8x1 : Shape := ⟨3, ![1048576, 8, 1]⟩
abbrev S1x1x8 : Shape := ⟨3, ![1, 1, 8]⟩
abbrev S1048576x8x8 : Shape := ⟨3, ![1048576, 8, 8]⟩
abbrev S1048576x8x8x1 : Shape := ⟨4, ![1048576, 8, 8, 1]⟩
abbrev S524288x128 : Shape := ⟨2, ![524288, 128]⟩
abbrev S8192x128 : Shape := ⟨2, ![8192, 128]⟩
abbrev S1048576x64 : Shape := ⟨2, ![1048576, 64]⟩

abbrev nBuf : Space → Nat
  | .hbm => 128
  | .vmem => 6
  | .smem => 0
  | _ => 0

abbrev bufTy : (tb : Table) → Fin (tcTables nBuf tb) → BufTy
  | .hbm, ⟨0, _⟩ => ⟨S262144, .f32⟩
  | .hbm, ⟨1, _⟩ => ⟨S262144, .f32⟩
  | .hbm, ⟨2, _⟩ => ⟨S1000000x8, .i32⟩
  | .hbm, ⟨3, _⟩ => ⟨S1000000x8, .i32⟩
  | .hbm, ⟨4, _⟩ => ⟨S1048576, .i32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1, .i32⟩
  | .hbm, ⟨14, _⟩ => ⟨S_, .i32⟩
  | .hbm, ⟨15, _⟩ => ⟨S1048576x1, .i32⟩
  | .hbm, ⟨16, _⟩ => ⟨S1048576x1, .i1⟩
  | .hbm, ⟨17, _⟩ => ⟨S1x1, .i32⟩
  | .hbm, ⟨18, _⟩ => ⟨S1048576x1, .i32⟩
  | .hbm, ⟨19, _⟩ => ⟨S1048576x1, .i1⟩
  | .hbm, ⟨20, _⟩ => ⟨S1048576x1, .i1⟩
  | .hbm, ⟨21, _⟩ => ⟨S_, .i1⟩
  | .hbm, ⟨22, _⟩ => ⟨S1048576, .i1⟩
  | .hbm, ⟨23, _⟩ => ⟨S1048576x8, .i32⟩
  | .hbm, ⟨24, _⟩ => ⟨S1048576x8, .i1⟩
  | .hbm, ⟨25, _⟩ => ⟨S_, .i32⟩
  | .hbm, ⟨26, _⟩ => ⟨S1048576x8, .i32⟩
  | .hbm, ⟨27, _⟩ => ⟨S1048576x8, .i32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S1, .i32⟩
  | .hbm, ⟨37, _⟩ => ⟨S_, .i32⟩
  | .hbm, ⟨38, _⟩ => ⟨S1048576x1, .i32⟩
  | .hbm, ⟨39, _⟩ => ⟨S1048576x1, .i1⟩
  | .hbm, ⟨40, _⟩ => ⟨S1x1, .i32⟩
  | .hbm, ⟨41, _⟩ => ⟨S1048576x1, .i32⟩
  | .hbm, ⟨42, _⟩ => ⟨S1048576x1, .i1⟩
  | .hbm, ⟨43, _⟩ => ⟨S1048576x1, .i1⟩
  | .hbm, ⟨44, _⟩ => ⟨S_, .i1⟩
  | .hbm, ⟨45, _⟩ => ⟨S1048576, .i1⟩
  | .hbm, ⟨46, _⟩ => ⟨S1048576x8, .i32⟩
  | .hbm, ⟨47, _⟩ => ⟨S1048576x8, .i1⟩
  | .hbm, ⟨48, _⟩ => ⟨S_, .i32⟩
  | .hbm, ⟨49, _⟩ => ⟨S1048576x8, .i32⟩
  | .hbm, ⟨50, _⟩ => ⟨S1048576x8, .i32⟩
  | .hbm, ⟨51, _⟩ => ⟨S8, .i32⟩
  | .hbm, ⟨52, _⟩ => ⟨S1048576x8x1, .i32⟩
  | .hbm, ⟨53, _⟩ => ⟨S1x1x8, .i32⟩
  | .hbm, ⟨54, _⟩ => ⟨S1048576x8x8, .i32⟩
  | .hbm, ⟨55, _⟩ => ⟨S1048576x8x8, .i32⟩
  | .hbm, ⟨56, _⟩ => ⟨S1048576x8x8, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S1048576x8x8, .i32⟩
  | .hbm, ⟨64, _⟩ => ⟨S1048576x8x8, .i32⟩
  | .hbm, ⟨65, _⟩ => ⟨S_, .i32⟩
  | .hbm, ⟨66, _⟩ => ⟨S1048576x8x8, .i32⟩
  | .hbm, ⟨67, _⟩ => ⟨S1048576x8x8, .i1⟩
  | .hbm, ⟨68, _⟩ => ⟨S_, .i32⟩
  | .hbm, ⟨69, _⟩ => ⟨S1048576x8x8, .i32⟩
  | .hbm, ⟨70, _⟩ => ⟨S1048576x8x8, .i1⟩
  | .hbm, ⟨71, _⟩ => ⟨S_, .i32⟩
  | .hbm, ⟨72, _⟩ => ⟨S_, .i1⟩
  | .hbm, ⟨73, _⟩ => ⟨S1048576x8x8, .i1⟩
  | .hbm, ⟨74, _⟩ => ⟨S1048576x8x8, .i1⟩
  | .hbm, ⟨75, _⟩ => ⟨S1048576x8x8, .i1⟩
  | .hbm, ⟨76, _⟩ => ⟨S1048576x8x8, .i32⟩
  | .hbm, ⟨77, _⟩ => ⟨S1048576x8x8, .i32⟩
  | .hbm, ⟨78, _⟩ => ⟨S1048576x8x8, .i32⟩
  | .hbm, ⟨79, _⟩ => ⟨S1048576x8x1, .i32⟩
  | .hbm, ⟨80, _⟩ => ⟨S1x1x8, .i32⟩
  | .hbm, ⟨81, _⟩ => ⟨S1048576x8x8, .i32⟩
  | .hbm, ⟨82, _⟩ => ⟨S1048576x8x8, .i32⟩
  | .hbm, ⟨83, _⟩ => ⟨S1048576x8x8, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S1048576x8x8, .i32⟩
  | .hbm, ⟨91, _⟩ => ⟨S1048576x8x8, .i32⟩
  | .hbm, ⟨92, _⟩ => ⟨S_, .i32⟩
  | .hbm, ⟨93, _⟩ => ⟨S1048576x8x8, .i32⟩
  | .hbm, ⟨94, _⟩ => ⟨S1048576x8x8, .i1⟩
  | .hbm, ⟨95, _⟩ => ⟨S_, .i32⟩
  | .hbm, ⟨96, _⟩ => ⟨S1048576x8x8, .i32⟩
  | .hbm, ⟨97, _⟩ => ⟨S1048576x8x8, .i1⟩
  | .hbm, ⟨98, _⟩ => ⟨S_, .i32⟩
  | .hbm, ⟨99, _⟩ => ⟨S_, .i1⟩
  | .hbm, ⟨100, _⟩ => ⟨S1048576x8x8, .i1⟩
  | .hbm, ⟨101, _⟩ => ⟨S1048576x8x8, .i1⟩
  | .hbm, ⟨102, _⟩ => ⟨S1048576x8x8, .i1⟩
  | .hbm, ⟨103, _⟩ => ⟨S1048576x8x8, .i32⟩
  | .hbm, ⟨104, _⟩ => ⟨S1048576x8x8, .i32⟩
  | .hbm, ⟨105, _⟩ => ⟨S1048576x8x8, .i32⟩
  | .hbm, ⟨106, _⟩ => ⟨S_, .i32⟩
  | .hbm, ⟨107, _⟩ => ⟨S1048576x8x8, .i32⟩
  | .hbm, ⟨108, _⟩ => ⟨S1048576x8x8, .i1⟩
  | .hbm, ⟨109, _⟩ => ⟨S_, .i32⟩
  | .hbm, ⟨110, _⟩ => ⟨S1048576x8x8, .i32⟩
  | .hbm, ⟨111, _⟩ => ⟨S1048576x8x8, .i32⟩
  | .hbm, ⟨112, _⟩ => ⟨S1048576x8x8, .i32⟩
  | .hbm, ⟨113, _⟩ => ⟨S1048576x8x8x1, .i32⟩
  | .hbm, ⟨114, _⟩ => ⟨S1048576x8x8, .f32⟩
  | .hbm, ⟨115, _⟩ => ⟨S_, .i32⟩
  | .hbm, ⟨116, _⟩ => ⟨S1048576x8x8, .i32⟩
  | .hbm, ⟨117, _⟩ => ⟨S1048576x8x8, .i1⟩
  | .hbm, ⟨118, _⟩ => ⟨S_, .i32⟩
  | .hbm, ⟨119, _⟩ => ⟨S1048576x8x8, .i32⟩
  | .hbm, ⟨120, _⟩ => ⟨S1048576x8x8, .i32⟩
  | .hbm, ⟨121, _⟩ => ⟨S1048576x8x8, .i32⟩
  | .hbm, ⟨122, _⟩ => ⟨S1048576x8x8x1, .i32⟩
  | .hbm, ⟨123, _⟩ => ⟨S1048576x8x8, .f32⟩
  | .hbm, ⟨124, _⟩ => ⟨S524288x128, .f32⟩
  | .hbm, ⟨125, _⟩ => ⟨S524288x128, .f32⟩
  | .hbm, ⟨126, _⟩ => ⟨S524288x128, .f32⟩
  | .hbm, ⟨127, _⟩ => ⟨S1048576x64, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_4 : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_c_4 : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_c : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_c_0 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v14 : Ref sig .tc := ⟨.hbm, 105, rfl⟩
abbrev main_c_1 : Ref sig .tc := ⟨.hbm, 106, rfl⟩
abbrev main_v15 : Ref sig .tc := ⟨.hbm, 107, rfl⟩
abbrev main_v16 : Ref sig .tc := ⟨.hbm, 108, rfl⟩
abbrev main_c_2 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_c_3 : Ref sig .tc := ⟨.hbm, 115, rfl⟩
abbrev main_v22 : Ref sig .tc := ⟨.hbm, 116, rfl⟩
abbrev main_v23 : Ref sig .tc := ⟨.hbm, 117, rfl⟩
abbrev main_c_4 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x8_0 : S1048576.BroadcastsInDim S1048576x8 (![0] : Fin 1 → Fin S1048576x8.rank)
  bcast_S_S1048576x8 : S_.BroadcastsInDim S1048576x8 (![] : Fin 0 → Fin S1048576x8.rank)
  bcast_S1048576x8_S1048576x8x1_0_1 : S1048576x8.BroadcastsInDim S1048576x8x1 (![0, 1] : Fin 2 → Fin S1048576x8x1.rank)
  bcast_S8_S1x1x8_2 : S8.BroadcastsInDim S1x1x8 (![2] : Fin 1 → Fin S1x1x8.rank)
  bcast_S1048576x8x1_S1048576x8x8_0_1_2 : S1048576x8x1.BroadcastsInDim S1048576x8x8 (![0, 1, 2] : Fin 3 → Fin S1048576x8x8.rank)
  bcast_S1x1x8_S1048576x8x8_0_1_2 : S1x1x8.BroadcastsInDim S1048576x8x8 (![0, 1, 2] : Fin 3 → Fin S1048576x8x8.rank)
  bcast_S_S1048576x8x8 : S_.BroadcastsInDim S1048576x8x8 (![] : Fin 0 → Fin S1048576x8x8.rank)
  bcast_S1048576x8x8_S1048576x8x8x1_0_1_2 : S1048576x8x8.BroadcastsInDim S1048576x8x8x1 (![0, 1, 2] : Fin 3 → Fin S1048576x8x8x1.rank)
  shapeCasts_S1048576x8x8_S524288x128 : S1048576x8x8.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S524288x128_S1048576x64 : S524288x128.ShapeCasts S1048576x64
  gather_S1000000x8_S1048576x1_S1048576x8_1_0_n_n_0_1_18_wf : GatherDims.WF S1000000x8 S1048576x1 S1048576x8 [1] [0] [] [0] [] 1 ![1, 8]
  gather_S262144_S1048576x8x8x1_S1048576x8x8_n_0_n_n_0_3_1_wf : GatherDims.WF S262144 S1048576x8x8x1 S1048576x8x8 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def gather_S1000000x8_S1048576x1_S1048576x8_1_0_n_n_0_1_18 : GatherDims S1000000x8 S1048576x1 S1048576x8 where
  offsetDims := [1]
  collapsedSliceDims := [0]
  operandBatchingDims := []
  startIndicesBatchingDims := []
  startIndexMap := [0]
  indexVectorDim := 1
  sliceSizes := ![1, 8]
  wf := gather_S1000000x8_S1048576x1_S1048576x8_1_0_n_n_0_1_18_wf
def gather_S262144_S1048576x8x8x1_S1048576x8x8_n_0_n_n_0_3_1 : GatherDims S262144 S1048576x8x8x1 S1048576x8x8 where
  offsetDims := []
  collapsedSliceDims := [0]
  operandBatchingDims := []
  startIndicesBatchingDims := []
  startIndexMap := [0]
  indexVectorDim := 3
  sliceSizes := ![1]
  wf := gather_S262144_S1048576x8x8x1_S1048576x8x8_n_0_n_n_0_3_1_wf

abbrev win0_0 : Pipeline.Window sig grid0 :=
  Pipeline.Window.ofSpec (Memref.whole main_v29) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144 : Shape := ⟨1, ![262144]⟩
abbrev S1000000x8 : Shape := ⟨2, ![1000000, 8]⟩
abbrev S1048576 : Shape := ⟨1, ![1048576]⟩
abbrev S_ : Shape := ⟨0, ![]⟩
abbrev S1048576x1 : Shape := ⟨2, ![1048576, 1]⟩
abbrev S1048576x8 : Shape := ⟨2, ![1048576, 8]⟩
abbrev S1048576x8x1 : Shape := ⟨3, ![1048576, 8, 1]⟩
abbrev S8 : Shape := ⟨1, ![8]⟩
abbrev S1x1x8 : Shape := ⟨3, ![1, 1, 8]⟩
abbrev S1048576x8x8 : Shape := ⟨3, ![1048576, 8, 8]⟩
abbrev S1048576x8x8x1 : Shape := ⟨4, ![1048576, 8, 8, 1]⟩
abbrev S1048576x64 : Shape := ⟨2, ![1048576, 64]⟩

abbrev nBuf : Space → Nat
  | .hbm => 99
  | .vmem => 0
  | .smem => 0
  | _ => 0

abbrev bufTy : (tb : Table) → Fin (tcTables nBuf tb) → BufTy
  | .hbm, ⟨0, _⟩ => ⟨S262144, .f32⟩
  | .hbm, ⟨1, _⟩ => ⟨S262144, .f32⟩
  | .hbm, ⟨2, _⟩ => ⟨S1000000x8, .i32⟩
  | .hbm, ⟨3, _⟩ => ⟨S1000000x8, .i32⟩
  | .hbm, ⟨4, _⟩ => ⟨S1048576, .i32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1048576x8, .i32⟩
  | .hbm, ⟨14, _⟩ => ⟨S1048576x8x1, .i32⟩
  | .hbm, ⟨15, _⟩ => ⟨S8, .i32⟩
  | .hbm, ⟨16, _⟩ => ⟨S1x1x8, .i32⟩
  | .hbm, ⟨17, _⟩ => ⟨S1048576x8x8, .i32⟩
  | .hbm, ⟨18, _⟩ => ⟨S1048576x8x8, .i32⟩
  | .hbm, ⟨19, _⟩ => ⟨S1048576x8x8, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1048576x8x8, .i32⟩
  | .hbm, ⟨27, _⟩ => ⟨S1048576x8x8, .i32⟩
  | .hbm, ⟨28, _⟩ => ⟨S_, .i32⟩
  | .hbm, ⟨29, _⟩ => ⟨S1048576x8x8, .i32⟩
  | .hbm, ⟨30, _⟩ => ⟨S1048576x8x8, .i1⟩
  | .hbm, ⟨31, _⟩ => ⟨S_, .i32⟩
  | .hbm, ⟨32, _⟩ => ⟨S1048576x8x8, .i32⟩
  | .hbm, ⟨33, _⟩ => ⟨S1048576x8x8, .i1⟩
  | .hbm, ⟨34, _⟩ => ⟨S_, .i32⟩
  | .hbm, ⟨35, _⟩ => ⟨S_, .i1⟩
  | .hbm, ⟨36, _⟩ => ⟨S1048576x8x8, .i1⟩
  | .hbm, ⟨37, _⟩ => ⟨S1048576x8x8, .i1⟩
  | .hbm, ⟨38, _⟩ => ⟨S1048576x8x8, .i1⟩
  | .hbm, ⟨39, _⟩ => ⟨S1048576x8x8, .i32⟩
  | .hbm, ⟨40, _⟩ => ⟨S1048576x8x8, .i32⟩
  | .hbm, ⟨41, _⟩ => ⟨S1048576x8x8, .i32⟩
  | .hbm, ⟨42, _⟩ => ⟨S_, .i32⟩
  | .hbm, ⟨43, _⟩ => ⟨S1048576x8x8, .i32⟩
  | .hbm, ⟨44, _⟩ => ⟨S1048576x8x8, .i1⟩
  | .hbm, ⟨45, _⟩ => ⟨S_, .i32⟩
  | .hbm, ⟨46, _⟩ => ⟨S1048576x8x8, .i32⟩
  | .hbm, ⟨47, _⟩ => ⟨S1048576x8x8, .i32⟩
  | .hbm, ⟨48, _⟩ => ⟨S1048576x8x8, .i32⟩
  | .hbm, ⟨49, _⟩ => ⟨S1048576x8x8x1, .i32⟩
  | .hbm, ⟨50, _⟩ => ⟨S1048576x8x8, .f32⟩
  | .hbm, ⟨51, _⟩ => ⟨S_, .i32⟩
  | .hbm, ⟨52, _⟩ => ⟨S1048576, .i32⟩
  | .hbm, ⟨53, _⟩ => ⟨S1048576, .i1⟩
  | .hbm, ⟨54, _⟩ => ⟨S_, .i32⟩
  | .hbm, ⟨55, _⟩ => ⟨S1048576, .i32⟩
  | .hbm, ⟨56, _⟩ => ⟨S1048576, .i32⟩
  | .hbm, ⟨57, _⟩ => ⟨S1048576, .i32⟩
  | .hbm, ⟨58, _⟩ => ⟨S1048576x1, .i32⟩
  | .hbm, ⟨59, _⟩ => ⟨S1048576x8, .i32⟩
  | .hbm, ⟨60, _⟩ => ⟨S1048576x8x1, .i32⟩
  | .hbm, ⟨61, _⟩ => ⟨S8, .i32⟩
  | .hbm, ⟨62, _⟩ => ⟨S1x1x8, .i32⟩
  | .hbm, ⟨63, _⟩ => ⟨S1048576x8x8, .i32⟩
  | .hbm, ⟨64, _⟩ => ⟨S1048576x8x8, .i32⟩
  | .hbm, ⟨65, _⟩ => ⟨S1048576x8x8, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S1048576x8x8, .i32⟩
  | .hbm, ⟨73, _⟩ => ⟨S1048576x8x8, .i32⟩
  | .hbm, ⟨74, _⟩ => ⟨S_, .i32⟩
  | .hbm, ⟨75, _⟩ => ⟨S1048576x8x8, .i32⟩
  | .hbm, ⟨76, _⟩ => ⟨S1048576x8x8, .i1⟩
  | .hbm, ⟨77, _⟩ => ⟨S_, .i32⟩
  | .hbm, ⟨78, _⟩ => ⟨S1048576x8x8, .i32⟩
  | .hbm, ⟨79, _⟩ => ⟨S1048576x8x8, .i1⟩
  | .hbm, ⟨80, _⟩ => ⟨S_, .i32⟩
  | .hbm, ⟨81, _⟩ => ⟨S_, .i1⟩
  | .hbm, ⟨82, _⟩ => ⟨S1048576x8x8, .i1⟩
  | .hbm, ⟨83, _⟩ => ⟨S1048576x8x8, .i1⟩
  | .hbm, ⟨84, _⟩ => ⟨S1048576x8x8, .i1⟩
  | .hbm, ⟨85, _⟩ => ⟨S1048576x8x8, .i32⟩
  | .hbm, ⟨86, _⟩ => ⟨S1048576x8x8, .i32⟩
  | .hbm, ⟨87, _⟩ => ⟨S1048576x8x8, .i32⟩
  | .hbm, ⟨88, _⟩ => ⟨S_, .i32⟩
  | .hbm, ⟨89, _⟩ => ⟨S1048576x8x8, .i32⟩
  | .hbm, ⟨90, _⟩ => ⟨S1048576x8x8, .i1⟩
  | .hbm, ⟨91, _⟩ => ⟨S_, .i32⟩
  | .hbm, ⟨92, _⟩ => ⟨S1048576x8x8, .i32⟩
  | .hbm, ⟨93, _⟩ => ⟨S1048576x8x8, .i32⟩
  | .hbm, ⟨94, _⟩ => ⟨S1048576x8x8, .i32⟩
  | .hbm, ⟨95, _⟩ => ⟨S1048576x8x8x1, .i32⟩
  | .hbm, ⟨96, _⟩ => ⟨S1048576x8x8, .f32⟩
  | .hbm, ⟨97, _⟩ => ⟨S1048576x8x8, .f32⟩
  | .hbm, ⟨98, _⟩ => ⟨S1048576x64, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v13 : Ref sig .tc := ⟨.hbm, 41, rfl⟩
abbrev main_c_2 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_c_7 : Ref sig .tc := ⟨.hbm, 88, rfl⟩
abbrev main_v35 : Ref sig .tc := ⟨.hbm, 89, rfl⟩
abbrev main_v36 : Ref sig .tc := ⟨.hbm, 90, rfl⟩
abbrev main_c_8 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x8_S1048576x8x1_0_1 : S1048576x8.BroadcastsInDim S1048576x8x1 (![0, 1] : Fin 2 → Fin S1048576x8x1.rank)
  bcast_S8_S1x1x8_2 : S8.BroadcastsInDim S1x1x8 (![2] : Fin 1 → Fin S1x1x8.rank)
  bcast_S1048576x8x1_S1048576x8x8_0_1_2 : S1048576x8x1.BroadcastsInDim S1048576x8x8 (![0, 1, 2] : Fin 3 → Fin S1048576x8x8.rank)
  bcast_S1x1x8_S1048576x8x8_0_1_2 : S1x1x8.BroadcastsInDim S1048576x8x8 (![0, 1, 2] : Fin 3 → Fin S1048576x8x8.rank)
  bcast_S_S1048576x8x8 : S_.BroadcastsInDim S1048576x8x8 (![] : Fin 0 → Fin S1048576x8x8.rank)
  bcast_S1048576x8x8_S1048576x8x8x1_0_1_2 : S1048576x8x8.BroadcastsInDim S1048576x8x8x1 (![0, 1, 2] : Fin 3 → Fin S1048576x8x8x1.rank)
  shapeCasts_S1048576x8x8_S1048576x64 : S1048576x8x8.ShapeCasts S1048576x64
  gather_S1000000x8_S1048576x1_S1048576x8_1_0_n_n_0_1_18_wf : GatherDims.WF S1000000x8 S1048576x1 S1048576x8 [1] [0] [] [0] [] 1 ![1, 8]
  gather_S262144_S1048576x8x8x1_S1048576x8x8_n_0_n_n_0_3_1_wf : GatherDims.WF S262144 S1048576x8x8x1 S1048576x8x8 [] [0] [] [0] [] 3 ![1]

variable [Facts₀]

def gather_S1000000x8_S1048576x1_S1048576x8_1_0_n_n_0_1_18 : GatherDims S1000000x8 S1048576x1 S1048576x8 where
  offsetDims := [1]
  collapsedSliceDims := [0]
  operandBatchingDims := []
  startIndicesBatchingDims := []
  startIndexMap := [0]
  indexVectorDim := 1
  sliceSizes := ![1, 8]
  wf := gather_S1000000x8_S1048576x1_S1048576x8_1_0_n_n_0_1_18_wf
def gather_S262144_S1048576x8x8x1_S1048576x8x8_n_0_n_n_0_3_1 : GatherDims S262144 S1048576x8x8x1 S1048576x8x8 where
  offsetDims := []
  collapsedSliceDims := [0]
  operandBatchingDims := []
  startIndicesBatchingDims := []
  startIndexMap := [0]
  indexVectorDim := 3
  sliceSizes := ![1]
  wf := gather_S262144_S1048576x8x8x1_S1048576x8x8_n_0_n_n_0_3_1_wf

class Facts : Prop extends Facts₀ where

variable [Facts]
-- ==== Proof.Chains.lean ====
/-
  The index arithmetic the two programs share, as pure functions of whole arrays.

  A token id `x` selects a row of a hash table `h : [1000000, 8]`: a negative id is first moved up by the
  table's height (`wrapTok`), and the row is read with the row number clamped into the table
  (`rowsClamped`). One of the programs also tests the moved id against `0 ≤ · ≤ 999999` (`inVocab`) and
  puts the least 32-bit integer in place of the whole row where the test fails (`rowsFilled`).
  Each of the row's eight offsets `o` then addresses eight consecutive cells of a table of 262144
  floats, cyclically: cell `(o + k) mod 262144` for `k = 0, …, 7`, the remainder taken with the sign of
  the divisor (`floorMod`, `cellIdx`), and `cells` reads those cells.
-/
import Idealize.ShloMosaic.PureOps

noncomputable section

namespace Cert.Chains

open Idealize.ShloMosaic

/-! ## Shapes -/

abbrev Sc : Shape := ⟨0, ![]⟩
abbrev One : Shape := ⟨1, ![1]⟩
abbrev OneOne : Shape := ⟨2, ![1, 1]⟩
abbrev Tok : Shape := ⟨1, ![1048576]⟩
abbrev TokCol : Shape := ⟨2, ![1048576, 1]⟩
abbrev Hash : Shape := ⟨2, ![1000000, 8]⟩
abbrev Offs : Shape := ⟨2, ![1048576, 8]⟩
abbrev OffsCol : Shape := ⟨3, ![1048576, 8, 1]⟩
abbrev Lane : Shape := ⟨1, ![8]⟩
abbrev LaneRow : Shape := ⟨3, ![1, 1, 8]⟩
abbrev Cells : Shape := ⟨3, ![1048576, 8, 8]⟩
abbrev CellsCol : Shape := ⟨4, ![1048576, 8, 8, 1]⟩
abbrev Table : Shape := ⟨1, ![262144]⟩

theorem b_Sc_Tok : Sc.BroadcastsInDim Tok (![] : Fin 0 → Fin Tok.rank) := by decide
theorem b_Tok_TokCol : Tok.BroadcastsInDim TokCol (![0] : Fin 1 → Fin TokCol.rank) := by decide
theorem b_Sc_TokCol : Sc.BroadcastsInDim TokCol (![] : Fin 0 → Fin TokCol.rank) := by decide
theorem b_One_OneOne : One.BroadcastsInDim OneOne (![1] : Fin 1 → Fin OneOne.rank) := by decide
theorem b_OneOne_TokCol : OneOne.BroadcastsInDim TokCol (![0, 1] : Fin 2 → Fin TokCol.rank) := by decide
theorem red_TokCol_Tok : TokCol.ReducesTo [1] Tok := by decide
theorem h_Sc : 0 < Sc.numel := by decide
theorem b_Tok_Offs : Tok.BroadcastsInDim Offs (![0] : Fin 1 → Fin Offs.rank) := by decide
theorem b_Sc_Offs : Sc.BroadcastsInDim Offs (![] : Fin 0 → Fin Offs.rank) := by decide
theorem b_Offs_OffsCol : Offs.BroadcastsInDim OffsCol (![0, 1] : Fin 2 → Fin OffsCol.rank) := by decide
theorem b_Lane_LaneRow : Lane.BroadcastsInDim LaneRow (![2] : Fin 1 → Fin LaneRow.rank) := by decide
theorem b_OffsCol_Cells : OffsCol.BroadcastsInDim Cells (![0, 1, 2] : Fin 3 → Fin Cells.rank) := by decide
theorem b_LaneRow_Cells : LaneRow.BroadcastsInDim Cells (![0, 1, 2] : Fin 3 → Fin Cells.rank) := by decide
theorem b_Sc_Cells : Sc.BroadcastsInDim Cells (![] : Fin 0 → Fin Cells.rank) := by decide
theorem b_Cells_CellsCol : Cells.BroadcastsInDim CellsCol (![0, 1, 2] : Fin 3 → Fin CellsCol.rank) := by decide
theorem rowDims_wf : GatherDims.WF Hash TokCol Offs [1] [0] [] [0] [] 1 ![1, 8] := by decide
theorem cellDims_wf : GatherDims.WF Table CellsCol Cells [] [0] [] [0] [] 3 ![1] := by decide

/-- Whole rows of the hash table, one per token: the start index is the token's row, the slice one row. -/
def rowDims : GatherDims Hash TokCol Offs where
  offsetDims := [1]
  collapsedSliceDims := [0]
  operandBatchingDims := []
  startIndicesBatchingDims := []
  startIndexMap := [0]
  indexVectorDim := 1
  sliceSizes := ![1, 8]
  wf := rowDims_wf

/-- Single cells of the float table, one per (token, offset, lane). -/
def cellDims : GatherDims Table CellsCol Cells where
  offsetDims := []
  collapsedSliceDims := [0]
  operandBatchingDims := []
  startIndicesBatchingDims := []
  startIndexMap := [0]
  indexVectorDim := 3
  sliceSizes := ![1]
  wf := cellDims_wf

/-! ## From a token id to a row of offsets -/

/-- A negative token id counts from the end of the table: it is moved up by the table's height. -/
def wrapTok (x : IVec Tok 32) : IVec Tok 32 :=
  select (cmpi .slt x (broadcastInDim Tok ![] b_Sc_Tok (constantI Sc 32 0#32)))
    (addi x (broadcastInDim Tok ![] b_Sc_Tok (constantI Sc 32 1000000#32))) x

/-- The moved ids as a column of start indices. -/
def tokCol (x : IVec Tok 32) : IVec TokCol 32 := broadcastInDim TokCol ![0] b_Tok_TokCol (wrapTok x)

/-- Row `x` of the hash table for every token, the row number clamped into the table. -/
def rowsClamped (h : IVec Hash 32) (x : IVec Tok 32) : IVec Offs 32 := Host.gather rowDims h (tokCol x)

/-- Whether the moved id is a row of the table: `0 ≤ · ≤ 999999`, signed. -/
def inVocab (x : IVec Tok 32) : IVec Tok 1 :=
  Host.reduce IntOp.andi
    (andi (cmpi .sge (tokCol x) (broadcastInDim TokCol ![] b_Sc_TokCol (constantI Sc 32 0#32)))
      (cmpi .sle (tokCol x)
        (broadcastInDim TokCol ![0, 1] b_OneOne_TokCol (broadcastInDim OneOne ![1] b_One_OneOne (constantI One 32 999999#32)))))
    (constantI Sc 1 1#1) red_TokCol_Tok h_Sc

/-- The same rows, with the least 32-bit integer in every place of a row whose id is no row of the table. -/
def rowsFilled (h : IVec Hash 32) (x : IVec Tok 32) : IVec Offs 32 :=
  select (broadcastInDim Offs ![0] b_Tok_Offs (inVocab x)) (rowsClamped h x)
    (broadcastInDim Offs ![] b_Sc_Offs (constantI Sc 32 2147483648#32))

/-! ## From a row of offsets to cells of the float table -/

/-- The divisor used: `1` in place of `0`. -/
def safeDiv (n : IVec Sc 32) : IVec Sc 32 :=
  select (cmpi .eq (id n) (constantI Sc 32 0#32)) (constantI Sc 32 1#32) (id n)

/-- The truncating remainder of every entry by the divisor. -/
def truncRem (a : IVec Cells 32) (n : IVec Sc 32) : IVec Cells 32 :=
  Host.remsi a (broadcastInDim Cells ![] b_Sc_Cells (safeDiv n))

/-- The remainder with the divisor's sign: the truncating remainder, moved by the divisor where it is not
    zero and its sign is not the divisor's. -/
def floorMod (a : IVec Cells 32) (n : IVec Sc 32) : IVec Cells 32 :=
  select
    (andi
      (cmpi .ne (cmpi .slt (truncRem a n) (broadcastInDim Cells ![] b_Sc_Cells (constantI Sc 32 0#32)))
        (broadcastInDim Cells ![] b_Sc_Cells (cmpi .slt (safeDiv n) (constantI Sc 32 0#32))))
      (cmpi .ne (truncRem a n) (broadcastInDim Cells ![] b_Sc_Cells (constantI Sc 32 0#32))))
    (addi (truncRem a n) (broadcastInDim Cells ![] b_Sc_Cells (safeDiv n)))
    (truncRem a n)

/-- Offset `o` of a token and lane `k`: `o + k`. -/
def laneSum (offs : IVec Offs 32) : IVec Cells 32 :=
  addi (broadcastInDim Cells ![0, 1, 2] b_OffsCol_Cells (broadcastInDim OffsCol ![0, 1] b_Offs_OffsCol offs))
    (broadcastInDim Cells ![0, 1, 2] b_LaneRow_Cells (broadcastInDim LaneRow ![2] b_Lane_LaneRow (iotaInDim Lane 32 0)))

/-- The cell each (token, offset, lane) reads: `(o + k) mod 262144`, a negative result moved up by the
    table's length (there is none: the remainder already has the divisor's sign). -/
def cellIdx (offs : IVec Offs 32) : IVec Cells 32 :=
  select
    (cmpi .slt (floorMod (laneSum offs) (constantI Sc 32 262144#32)) (broadcastInDim Cells ![] b_Sc_Cells (constantI Sc 32 0#32)))
    (addi (floorMod (laneSum offs) (constantI Sc 32 262144#32)) (broadcastInDim Cells ![] b_Sc_Cells (constantI Sc 32 262144#32)))
    (floorMod (laneSum offs) (constantI Sc 32 262144#32))

/-- The float table read at those cells. -/
def cells {α : Type} (table : Table.Idx → α) (offs : IVec Offs 32) : Cells.Idx → α :=
  Host.gather cellDims table (broadcastInDim CellsCol ![0, 1, 2] b_Cells_CellsCol (cellIdx offs))

end Cert.Chains

end
-- ==== Proof.Range.lean ====
/-
  When every token id lies in `[-1000000, 1000000)`, the id moved up by the table's height (if negative)
  is a row number of the hash table, `0 ≤ · ≤ 999999`; so the in-range test is one everywhere, and
  the rows with out-of-range ids filled are the clamped rows themselves.
-/
import proofs.«419762_j69054484185730_3_alg».proof.Proof.Chains
import Idealize.ShloMosaic.Lib.ReduceAll
import Idealize.ShloMosaic.Lib.StableHlo.Predicate

noncomputable section

namespace Cert.Chains

open Idealize.ShloMosaic

/-! ## Signed comparisons of 32-bit words as comparisons of integers -/

theorem cmpi_slt_iff {a b : BitVec 32} : IntOp.cmpi .slt a b = 1#1 ↔ a.toInt < b.toInt := by
  show BitVec.ofBool (a.slt b) = 1#1 ↔ _
  rw [StableHlo.Predicate.ofBool_eq_one_iff, BitVec.slt, decide_eq_true_iff]

theorem cmpi_sle_iff {a b : BitVec 32} : IntOp.cmpi .sle a b = 1#1 ↔ a.toInt ≤ b.toInt := by
  show BitVec.ofBool (a.sle b) = 1#1 ↔ _
  rw [StableHlo.Predicate.ofBool_eq_one_iff, BitVec.sle, decide_eq_true_iff]

theorem cmpi_sge_iff {a b : BitVec 32} : IntOp.cmpi .sge a b = 1#1 ↔ b.toInt ≤ a.toInt := by
  show BitVec.ofBool (b.sle a) = 1#1 ↔ _
  rw [StableHlo.Predicate.ofBool_eq_one_iff, BitVec.sle, decide_eq_true_iff]

/-- A token id in `[-1000000, 1000000)`, moved up by 1000000 when negative, lies in `[0, 999999]`: the sum does
    not wrap, being below 2³¹ in absolute value. -/
theorem moved_inVocab (v : BitVec 32) (hlo : (-1000000 : Int) ≤ v.toInt) (hhi : v.toInt < 1000000) :
    IntOp.andi (IntOp.cmpi .sge (Scalar.select (IntOp.cmpi .slt v 0#32) (IntOp.addi v 1000000#32) v) 0#32)
      (IntOp.cmpi .sle (Scalar.select (IntOp.cmpi .slt v 0#32) (IntOp.addi v 1000000#32) v) 999999#32) = 1#1 := by
  have h0 : (0#32 : BitVec 32).toInt = 0 := by decide
  have h9 : (999999#32 : BitVec 32).toInt = 999999 := by decide
  have hM : (1000000#32 : BitVec 32).toInt = 1000000 := by decide
  rw [IntOp.andi_eq_one, cmpi_sge_iff, cmpi_sle_iff, h0, h9]
  by_cases hneg : v.toInt < 0
  · have hs : IntOp.cmpi .slt v 0#32 = 1#1 := cmpi_slt_iff.2 (by rw [h0]; exact hneg)
    have hw : (IntOp.addi v 1000000#32).toInt = v.toInt + 1000000 := by
      show (v + 1000000#32).toInt = _
      rw [BitVec.toInt_add, hM, Int.bmod_def]; omega
    rw [hs, show Scalar.select (1#1) (IntOp.addi v 1000000#32) v = IntOp.addi v 1000000#32 from rfl, hw]
    omega
  · have hs : IntOp.cmpi .slt v 0#32 = 0#1 := by
      have : ¬ IntOp.cmpi .slt v 0#32 = 1#1 := fun h => hneg (by have := cmpi_slt_iff.1 h; rwa [h0] at this)
      generalize IntOp.cmpi .slt v 0#32 = b at this ⊢
      revert this; revert b; decide
    rw [hs, show Scalar.select (0#1) (IntOp.addi v 1000000#32) v = v from rfl]
    omega

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize List.filter _ _ = l
  induction l with
  | nil => rfl
  | cons a l ih => rw [List.foldl_cons, hx]; exact ih

/-- A select whose condition is one everywhere is its first branch. -/
theorem select_of_ones {s : Shape} {α : Type} (c : IVec s 1) (a b : s.Idx → α) (hc : ∀ i, c i = 1#1) : select c a b = a := by
  funext i
  unfold select
  rw [hc i]
  rfl

/-- The ids the two programs agree on: every token id in `[-1000000, 1000000)`, as signed words. -/
def InRange (x : IVec Tok 32) : Prop := ∀ i, (-1000000 : Int) ≤ (x i).toInt ∧ (x i).toInt < 1000000

/-- On such ids the in-range test is one at every token. -/
theorem inVocab_eq_one (x : IVec Tok 32) (hx : InRange x) (j : Tok.Idx) : inVocab x j = 1#1 := by
  unfold inVocab
  refine reduce_andi_ones _ _ _ _ (fun i => ?_) (fun _ => rfl) j
  exact moved_inVocab (x _) (hx _).1 (hx _).2

/-- So nothing is filled: the filled rows are the clamped rows. -/
theorem rowsFilled_eq (h : IVec Hash 32) (x : IVec Tok 32) (hx : InRange x) : rowsFilled h x = rowsClamped h x := by
  unfold rowsFilled
  refine select_of_ones _ _ _ (fun i => ?_)
  unfold broadcastInDim
  exact inVocab_eq_one x hx _

end Cert.Chains

end
-- ==== Proof.PreRange.lean ====
/-
  The precondition, read back: its last conjunct is a reduction by `and` over all token ids of
  `-1000000 ≤ x` and `x < 1000000` (signed); where the precondition is one, every token id is in that range.
-/
import proofs.«419762_j69054484185730_3_alg».proof.Proof.Gen.Pre_finite_inputs
import proofs.«419762_j69054484185730_3_alg».proof.Proof.Range

noncomputable section

namespace Cert.Chains

open Idealize.ShloMosaic

instance : Subsingleton Cert.Pre_finite_inputs.S_.Idx := ⟨fun a b => funext fun d => d.elim0⟩

/-- Where the precondition holds, every token id lies in `[-1000000, 1000000)`. -/
theorem inRange_of_pre {F : FTy → Type} [FloatOps F]
    (a0 a1 : FVec F Cert.Pre_finite_inputs.S262144 .f32) (a2 a3 : IVec Cert.Pre_finite_inputs.S1000000x8 32)
    (x : IVec Cert.Pre_finite_inputs.S1048576 32)
    (h : Cert.Pre_finite_inputs.fn (F := F) a0 a1 a2 a3 x = fun _ => 1#1) : InRange x := by
  have h' := congrFun h (fun d => d.elim0)
  dsimp only [Cert.Pre_finite_inputs.fn] at h'
  have hC := (IntOp.andi_eq_one.1 h').2
  intro i
  have hi := Host.reduce_andi_all _ _ _ _ _ hC i
  obtain ⟨h1, h2⟩ := IntOp.andi_eq_one.1 hi
  have e1 : (4293967296#32 : BitVec 32).toInt = -1000000 := by decide
  have e2 : (1000000#32 : BitVec 32).toInt = 1000000 := by decide
  have g1 := cmpi_sge_iff.1 h1
  have g2 := cmpi_slt_iff.1 h2
  exact ⟨e1 ▸ g1, e2 ▸ g2⟩

end Cert.Chains

end
-- ==== Proof.Reshape.lean ====
/-
  Reshapes keep row-major positions, so reshaping twice is reshaping once: the elementwise sum of two
  arrays, each first reshaped to a middle shape, then reshaped again, is the reshape of the elementwise
  sum of the two arrays.
-/
import Idealize.ShloMosaic.PureOps

noncomputable section

namespace Cert.Chains

open Idealize.ShloMosaic

theorem sum_reshaped {F : FTy → Type} [FloatOps F] {s u t : Shape} (P0 P1 : FVec F s .f32)
    (h1 : s.ShapeCasts u) (h2 : u.ShapeCasts t) (h3 : s.ShapeCasts t) :
    shapeCast t (fun i => FloatOps.addf (shapeCast u P0 h1 i) (shapeCast u P1 h1 i)) h2 = shapeCast t (addf P0 P1) h3 := by
  funext j
  show FloatOps.addf (P0 (Shape.reshapeEquiv h1 (Shape.reshapeEquiv h2 j))) (P1 (Shape.reshapeEquiv h1 (Shape.reshapeEquiv h2 j)))
    = FloatOps.addf (P0 (Shape.reshapeEquiv h3 j)) (P1 (Shape.reshapeEquiv h3 j))
  rw [Shape.reshapeEquiv_reshapeEquiv]

end Cert.Chains

end
-- ==== Proof.RefOps.lean ====
/-
  The reference program's run, read back. Its @main is a straight line of host operations once the two
  calls of the floor-remainder function (and, inside each, of the select function) are written out at
  their call sites over the calls' own buffers; so every execution ends with each buffer at the fold
  of those operations over the launch contents. The result buffer then holds, reshaped to [1048576, 64],
  the sum of the two float tables read at the cells the shared index arithmetic computes from the
  clamped rows of the two hash tables; the five arguments are written by no operation.
-/
import proofs.«419762_j69054484185730_3_alg».proof.Proof.Gen.ReferenceIdeal
import proofs.«419762_j69054484185730_3_alg».proof.Proof.Chains
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One call of the floor-remainder function, its operations in order over the call's buffers `φ` (the
    select function's one operation in its place): the divisor with 1 for 0, the truncating remainder,
    and the correction by the divisor where the remainder is not zero and has the other sign. -/
abbrev remOps (a : TRef sig ⟨S1048576x8x8, .i32⟩) (n : TRef sig ⟨S_, .i32⟩) (φ : fn_remainder.Bufs) : List (HloOp τ sig (Elt F)) :=
  [ TRef.unary n φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S1048576x8x8 ![] bcast_S_S1048576x8x8),
    TRef.binary a φ.v3 φ.v4 Host.remsi,
    TRef.nullary φ.c_1 (constantI S_ 32 0#32),
    TRef.unary φ.c_1 φ.v5 (broadcastInDim S1048576x8x8 ![] bcast_S_S1048576x8x8),
    TRef.binary φ.v4 φ.v5 φ.v6 (cmpi .ne),
    TRef.nullary φ.c_2 (constantI S_ 32 0#32),
    TRef.unary φ.c_2 φ.v7 (broadcastInDim S1048576x8x8 ![] bcast_S_S1048576x8x8),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1048576x8x8 ![] bcast_S_S1048576x8x8),
    TRef.binary φ.v8 φ.v10 φ.v11 (cmpi .ne),
    TRef.binary φ.v11 φ.v6 φ.v12 andi,
    TRef.unary φ.call0.v0 φ.v13 (broadcastInDim S1048576x8x8 ![] bcast_S_S1048576x8x8),
    TRef.binary φ.v4 φ.v13 φ.v14 addi,
    TRef.ternary φ.v12 φ.v14 φ.v4 φ.v15 select ]

/-- The first half of @main: the rows of the first hash table, the cells they address, the first float
    table read there. -/
abbrev opsA : List (HloOp τ sig (Elt F)) :=
  [ nullary main_c (constantI S_ 32 0#32),
    unary main_c main_v0 (broadcastInDim S1048576 ![] bcast_S_S1048576),
    binary main_arg4 main_v0 main_v1 (cmpi .slt),
    nullary main_c_0 (constantI S_ 32 1000000#32),
    unary main_c_0 main_v2 (broadcastInDim S1048576 ![] bcast_S_S1048576),
    binary main_arg4 main_v2 main_v3 addi,
    ternary main_v1 main_v3 main_arg4 main_v4 select,
    unary main_v4 main_v5 (broadcastInDim S1048576x1 ![0] bcast_S1048576_S1048576x1_0),
    binary main_arg2 main_v5 main_v6 (fun x i => Host.gather gather_S1000000x8_S1048576x1_S1048576x8_1_0_n_n_0_1_18 x i),
    unary main_v6 main_v7 (broadcastInDim S1048576x8x1 ![0, 1] bcast_S1048576x8_S1048576x8x1_0_1),
    nullary main_v8 (iotaInDim S8 32 0),
    unary main_v8 main_v9 (broadcastInDim S1x1x8 ![2] bcast_S8_S1x1x8_2),
    unary main_v7 main_v10 (broadcastInDim S1048576x8x8 ![0, 1, 2] bcast_S1048576x8x1_S1048576x8x8_0_1_2),
    unary main_v9 main_v11 (broadcastInDim S1048576x8x8 ![0, 1, 2] bcast_S1x1x8_S1048576x8x8_0_1_2),
    binary main_v10 main_v11 main_v12 addi,
    nullary main_c_1 (constantI S_ 32 262144#32) ]

abbrev opsB : List (HloOp τ sig (Elt F)) :=
  [ nullary main_c_2 (constantI S_ 32 0#32),
    unary main_c_2 main_v14 (broadcastInDim S1048576x8x8 ![] bcast_S_S1048576x8x8),
    binary main_v13 main_v14 main_v15 (cmpi .slt),
    nullary main_c_3 (constantI S_ 32 262144#32),
    unary main_c_3 main_v16 (broadcastInDim S1048576x8x8 ![] bcast_S_S1048576x8x8),
    binary main_v13 main_v16 main_v17 addi,
    ternary main_v15 main_v17 main_v13 main_v18 select,
    unary main_v18 main_v19 (broadcastInDim S1048576x8x8x1 ![0, 1, 2] bcast_S1048576x8x8_S1048576x8x8x1_0_1_2),
    binary main_arg0 main_v19 main_v20 (fun x i => Host.gather gather_S262144_S1048576x8x8x1_S1048576x8x8_n_0_n_n_0_3_1 x i) ]

/-- The second half: the same for the second hash table and the second float table. -/
abbrev opsC : List (HloOp τ sig (Elt F)) :=
  [ nullary main_c_4 (constantI S_ 32 0#32),
    unary main_c_4 main_v21 (broadcastInDim S1048576 ![] bcast_S_S1048576),
    binary main_arg4 main_v21 main_v22 (cmpi .slt),
    nullary main_c_5 (constantI S_ 32 1000000#32),
    unary main_c_5 main_v23 (broadcastInDim S1048576 ![] bcast_S_S1048576),
    binary main_arg4 main_v23 main_v24 addi,
    ternary main_v22 main_v24 main_arg4 main_v25 select,
    unary main_v25 main_v26 (broadcastInDim S1048576x1 ![0] bcast_S1048576_S1048576x1_0),
    binary main_arg3 main_v26 main_v27 (fun x i => Host.gather gather_S1000000x8_S1048576x1_S1048576x8_1_0_n_n_0_1_18 x i),
    unary main_v27 main_v28 (broadcastInDim S1048576x8x1 ![0, 1] bcast_S1048576x8_S1048576x8x1_0_1),
    nullary main_v29 (iotaInDim S8 32 0),
    unary main_v29 main_v30 (broadcastInDim S1x1x8 ![2] bcast_S8_S1x1x8_2),
    unary main_v28 main_v31 (broadcastInDim S1048576x8x8 ![0, 1, 2] bcast_S1048576x8x1_S1048576x8x8_0_1_2),
    unary main_v30 main_v32 (broadcastInDim S1048576x8x8 ![0, 1, 2] bcast_S1x1x8_S1048576x8x8_0_1_2),
    binary main_v31 main_v32 main_v33 addi,
    nullary main_c_6 (constantI S_ 32 262144#32) ]

/-- The end: the second float table read, the sum, the reshape. -/
abbrev opsD : List (HloOp τ sig (Elt F)) :=
  [ nullary main_c_7 (constantI S_ 32 0#32),
    unary main_c_7 main_v35 (broadcastInDim S1048576x8x8 ![] bcast_S_S1048576x8x8),
    binary main_v34 main_v35 main_v36 (cmpi .slt),
    nullary main_c_8 (constantI S_ 32 262144#32),
    unary main_c_8 main_v37 (broadcastInDim S1048576x8x8 ![] bcast_S_S1048576x8x8),
    binary main_v34 main_v37 main_v38 addi,
    ternary main_v36 main_v38 main_v34 main_v39 select,
    unary main_v39 main_v40 (broadcastInDim S1048576x8x8x1 ![0, 1, 2] bcast_S1048576x8x8_S1048576x8x8x1_0_1_2),
    binary main_arg1 main_v40 main_v41 (fun x i => Host.gather gather_S262144_S1048576x8x8x1_S1048576x8x8_n_0_n_n_0_3_1 x i),
    binary main_v20 main_v41 main_v42 addf,
    reshape main_v42 main_v43 rfl shapeCasts_S1048576x8x8_S1048576x64 ]

/-- @main's stretches in order: its own operations between the calls, each call's operations a stretch. -/
abbrev stretches : List (List (HloOp τ sig (Elt F))) :=
  [opsA, remOps (.of main_v12) (.of main_c_1) main_call0, opsB, opsC, remOps (.of main_v33) (.of main_c_6) main_call1, opsD]

/-- @main's operations in order, the calls written out. -/
abbrev ops : List (HloOp τ sig (Elt F)) := stretches.flatten

/-- Stretches run one after the other are their concatenation run as one line. -/
theorem chain_seq : ∀ l : List (List (HloOp τ sig (Elt F))),
    Pipeline.chain (l.map fun s => (seq s : Prog (TpuEff nD τ sig (Elt F) (Pipeline.Sig Λ₀ (Fin 0) fun p => (pcfgs (F := F) p).Adm) .tc) PUnit))
      = seq l.flatten
  | [] => rfl
  | a :: l => by rw [List.map_cons, Pipeline.chain_cons, chain_seq l, List.flatten_cons, seq_append]

/-- @main is the chain of those stretches, a stretch opened and closed at every call. -/
theorem main_chain (c : Dev nD) : main (F := F) c
    = Pipeline.chain ((stretches (F := F)).map fun s => (seq s : Prog (TpuEff nD τ sig (Elt F) (Pipeline.Sig Λ₀ (Fin 0) fun p => (pcfgs (F := F) p).Adm) .tc) PUnit)) := by
  chain_rfl

/-- So @main is that straight line. -/
theorem main_eq (c : Dev nD) : main (F := F) c = seq ops := (main_chain c).trans (chain_seq stretches)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, stretches, opsA, opsB, opsC, opsD, remOps, List.flatten_cons, List.flatten_nil, List.append_nil, List.cons_append, List.nil_append, List.Forall,
    nullary_bufs_sub, unary_bufs_sub, binary_bufs_sub, ternary_bufs_sub, reshape_bufs_sub, and_self]

end Cert.ReferenceIdeal.Hand

end
-- ==== Proof.RefValue.lean ====
/-
  The reference's result and its run. After its operations the result buffer holds, reshaped to
  [1048576, 64], the sum of the two float tables read at the cells the shared index arithmetic computes
  from the clamped rows of the two hash tables; no operation writes an argument.
-/
import proofs.«419762_j69054484185730_3_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Chains (cells rowsClamped)

variable {F : FTy → Type} [FloatOps F]

/-- The reference's result as a function of its five arguments. -/
def result (t0 t1 : FVec F S262144 .f32) (h0 h1 : IVec S1000000x8 32) (x : IVec S1048576 32) : FVec F S1048576x64 .f32 :=
  shapeCast S1048576x64 (addf (cells t0 (rowsClamped h0 x)) (cells t1 (rowsClamped h1 x))) shapeCasts_S1048576x8x8_S1048576x64

attribute [local irreducible] Host.reduce Host.gather Host.remsi in
set_option maxRecDepth 16384 in
set_option maxHeartbeats 2000000 in
/-- The fold of the operations at the result buffer is that function of the contents at the argument buffers. -/
theorem out_eq (V : Valuation τ sig (Elt F)) :
    after ops V (Proc.devRef .tc main_v43)
      = result (V (Proc.devRef .tc main_arg0)) (V (Proc.devRef .tc main_arg1)) (V (Proc.devRef .tc main_arg2))
          (V (Proc.devRef .tc main_arg3)) (V (Proc.devRef .tc main_arg4)) := by
  simp only [ops, stretches, opsA, opsB, opsC, opsD, remOps, List.flatten_cons, List.flatten_nil, List.append_nil, List.cons_append,
    List.nil_append]
  after_results_simp
  rfl

/-- No operation writes an argument's buffer. -/
theorem kept (V : Valuation τ sig (Elt F)) (b : Ref sig .tc)
    (hb : b = main_arg0 ∨ b = main_arg1 ∨ b = main_arg2 ∨ b = main_arg3 ∨ b = main_arg4) :
    after ops V (Proc.devRef .tc b) = V (Proc.devRef .tc b) := by
  refine StableHlo.after_of_forall_not_mem (b := Proc.devRef .tc b) _ _ (List.forall_iff_forall_mem.mp ?_)
  simp only [ops, stretches, opsA, opsB, opsC, opsD, remOps, List.flatten_cons, List.flatten_nil, List.append_nil, List.cons_append,
    List.nil_append, List.Forall, nullary_writes, unary_writes, binary_writes, ternary_writes, reshape_writes, Finset.mem_singleton]
  rcases hb with rfl | rfl | rfl | rfl | rfl
  all_goals
    repeat' apply And.intro
    all_goals exact StableHlo.devRef_ne_of_ne (by decide)

/-- Every operation determines its result: none allocates. -/
theorem ops_fresh : (ops : List (HloOp τ sig (Elt F))).Forall fun op => op.fresh = ∅ := by
  simp only [ops, stretches, opsA, opsB, opsC, opsD, remOps, List.flatten_cons, List.flatten_nil, List.append_nil, List.cons_append,
    List.nil_append, List.Forall]
  repeat' constructor

/-- Every execution of the reference terminates with its result at `result` of the arguments and the
    arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v43).trans (out_eq _),
      (h c main_arg0).trans (kept _ _ (.inl rfl)),
      (h c main_arg1).trans (kept _ _ (.inr (.inl rfl))),
      (h c main_arg2).trans (kept _ _ (.inr (.inr (.inl rfl)))),
      (h c main_arg3).trans (kept _ _ (.inr (.inr (.inr (.inl rfl))))),
      (h c main_arg4).trans (kept _ _ (.inr (.inr (.inr (.inr rfl)))))⟩)
    (run_seq scopedRefs_eq scopedSems_eq defs main (fun _ => ops) main_eq (fun _ => ops_sub) m ρ
      (fun _ op hop => (List.forall_iff_forall_mem.mp ops_fresh) op hop))

end Cert.ReferenceIdeal.Hand

end
-- ==== Proof.KernelValue.lean ====
/-
  What the kernel's program leaves in its result buffer, from the generated frame run.

  The one pipelined call adds two [524288, 128] arrays block by block: 64 grid points, point `t` reading
  rows `8192·t … 8192·t + 8191` of both inputs and writing their elementwise sum to the same rows of the
  output. Every window has the same index map, so what point `t` writes back is block `t` of the
  elementwise sum of the two whole input arrays; the 64 blocks cover the output, so the output array
  ends as that sum. The one host operation after the call reshapes it to [1048576, 64].
-/
import proofs.«419762_j69054484185730_3_alg».proof.Proof.Gen.KernelIdeal.Frame
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeroOff : (![0, 0] : Fin 2 → Nat) = fun _ => 0 := funext fun a => by fin_cases a <;> rfl

/-- The elementwise sum of two [524288, 128] arrays. -/
abbrev sumOf (a0 a1 : S524288x128.Idx → Elt F .f32) : S524288x128.Idx → Elt F .f32 := fun i => FloatOps.addf (a0 i) (a1 i)

/-- The body stores the sum of the two blocks it loads (its two casts are to the blocks' own shape). -/
theorem pay_eq (x0 x1 : Vec F S8192x128 .f32) : k0_pay1 x0 x1 = addf x0 x1 := by
  unfold k0_pay1
  dsimp only
  rw [shapeCast_self, shapeCast_self]

/-- The three windows move together: at point `t` each is at block `(t, 0)`. -/
theorem sameBlock : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block row of the output is some point's. -/
theorem block_onto : ∀ q0 : Fin 64, ∃ t : Fin cfg0.N, win0_2.index t = ![q0.val, 0] :=
  (by decide +kernel : ∀ q0 : Fin 64, ∃ t : Fin grid0.N, win0_2.index t = ![q0.val, 0])

/-- At point `t`: the body's result over block `t` of any two arrays is block `t` of their sum. -/
theorem block_sum (A0 A1 : S524288x128.Idx → Elt F .f32) (t : Fin cfg0.N) :
    (cfg0.win 2).cut (grid0.coords t)
        (out0_2 (((cfg0.win 0).blk t).view.read (Elt F) A0) (((cfg0.win 1).blk t).view.read (Elt F) A1))
      = ((cfg0.win 2).blk t).view.read (Elt F) (sumOf A0 A1) := by
  unfold out0_2
  rw [View.canon_unit_zero zeroOff]
  simp only [View.ld_unit_zero (S := S8192x128) zeroOff]
  rw [pay_eq]
  obtain ⟨e0, e1, e2, e3⟩ := sameBlock t
  funext j
  show FloatOps.addf (A0 (((cfg0.win 0).blk t).view.emb j)) (A1 (((cfg0.win 1).blk t).view.emb j)) = FloatOps.addf (A0 (((cfg0.win 2).blk t).view.emb j)) (A1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- What point `t` writes back is block `t` of the sum of the two input arrays as the call finds them. -/
theorem flushed_eq (c : Dev nD) (t : Fin cfg0.N) :
    (dats m 0 c).flushed 2 t = ((cfg0.win 2).blk t).view.read (Elt F) (sumOf (V m c main_v29) (V m c main_v30)) := by
  show (cfg0.win 2).cut (grid0.coords t) ((dats m 0 c).after 2 t) = _
  rw [after0_2]
  unfold iblk
  exact block_sum (V m c main_v29) (V m c main_v30) t

/-- An index of the output array is in point `t`'s block iff each coordinate is in the block's range. -/
theorem mem_blk (t : Fin cfg0.N) (i : S524288x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v31).slice (win0_2.rect t)).set ↔ _
  rw [View.set_slice_whole, Rect.mem_set_unit]
  exact Iff.rfl

/-- The blocks cover the output: row `r` is in the block of the point at block row `r / 8192`. -/
theorem cover (i : S524288x128.Idx) : ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := block_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the call: the sum of the two input arrays. -/
theorem final (c : Dev nD) : (dats m 0 c).arrAt 2 cfg0.N = sumOf (V m c main_v29) (V m c main_v30) :=
  (dats m 0 c).arrAt_eq_of_cover 2 _ (fun t _ => flushed_eq m c t) cover

/-- The result buffer after the reshape that follows the call. -/
theorem tail_result (c : Dev nD) :
    Pipeline.afterTail₀ cfgs (dats m) 0 (V0 m) [hostOps1] c main_v32
      = shapeCast S1048576x64 (sumOf (V m c main_v29) (V m c main_v30)) shapeCasts_S524288x128_S1048576x64 := by
  unfold Pipeline.afterTail₀
  show StableHlo.after hostOps1 _ (Proc.devRef .tc main_v32) = _
  open Idealize.ShloMosaic.StableHlo in after_results
  have e := (Pipeline.withArrays_arr spec0 launch0.win.arr_inj c (V0 m c) (fun w => (dats m 0 c).arrAt w cfg0.N) 2).trans (final m c)
  funext i
  exact congrFun (congrArg (fun A => shapeCast S1048576x64 A shapeCasts_S524288x128_S1048576x64) e) i

end Cert.KernelIdeal.Hand

end
-- ==== Proof.KernelRun.lean ====
/-
  The kernel's program run to its end: every execution terminates with the result buffer at the reshape of
  the sum of the pipelined call's two input arrays, and the five arguments as launched.
-/
import proofs.«419762_j69054484185730_3_alg».proof.Proof.KernelValue

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c.tc : Thread nD τ).loc main_v32)
        = shapeCast S1048576x64 (sumOf (V m c main_v29) (V m c main_v30)) shapeCasts_S524288x128_S1048576x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v32 (Pipeline.mem_restRefs_of main_v32 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.KernelRows.lean ====
/-
  What the two input arrays of the pipelined call hold when it is entered.

  Two stretches of host operations, one per hash table, move the negative token ids up, test every moved id
  against the table's height and read the table's rows at the moved ids (clamped); the last five operations
  of each put a constant in place of the rows whose id failed the test, so each stretch leaves the filled
  rows of its table. The remaining host operations before the call turn each table's rows into cells of a
  float table, read the float table there, and reshape the [1048576, 8, 8] array read to [524288, 128].
-/
import proofs.«419762_j69054484185730_3_alg».proof.Proof.Gen.KernelIdeal.Frame
import proofs.«419762_j69054484185730_3_alg».proof.Proof.Chains
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.Chains

variable {F : FTy → Type} [FloatOps F]

/-! ## The first hash table's stretch -/

/-- Its last five operations: the rows read, the test broadcast along the rows, the constant, the fill. -/
abbrev fill0 : List (HloOp τ sig (Elt F)) :=
  [ TRef.binary (.of main_arg2 : TRef sig ⟨S1000000x8, .i32⟩) (.of main_call0_v5 : TRef sig ⟨S1048576x1, .i32⟩) (.of main_call0_v13 : TRef sig ⟨S1048576x8, .i32⟩) (fun x i => Host.gather gather_S1000000x8_S1048576x1_S1048576x8_1_0_n_n_0_1_18 x i),
    TRef.unary (.of main_call0_v12 : TRef sig ⟨S1048576, .i1⟩) (.of main_call0_v14 : TRef sig ⟨S1048576x8, .i1⟩) (broadcastInDim S1048576x8 ![0] bcast_S1048576_S1048576x8_0),
    TRef.nullary (.of main_call0_c_4 : TRef sig ⟨S_, .i32⟩) (constantI S_ 32 2147483648#32),
    TRef.unary (.of main_call0_c_4 : TRef sig ⟨S_, .i32⟩) (.of main_call0_v15 : TRef sig ⟨S1048576x8, .i32⟩) (broadcastInDim S1048576x8 ![] bcast_S_S1048576x8),
    TRef.ternary (.of main_call0_v14 : TRef sig ⟨S1048576x8, .i1⟩) (.of main_call0_v13 : TRef sig ⟨S1048576x8, .i32⟩) (.of main_call0_v15 : TRef sig ⟨S1048576x8, .i32⟩) (.of main_v0 : TRef sig ⟨S1048576x8, .i32⟩) select ]

theorem split0 : (hostOps0 : List (HloOp τ sig (Elt F))) = hostOps0.take 18 ++ fill0 := rfl

/-- The stretch is its first eighteen operations, then the five. -/
theorem after_split0 (W : Valuation τ sig (Elt F)) : after hostOps0 W = after fill0 (after (hostOps0.take 18) W) :=
  (congrArg (fun l => after l W) split0).trans (StableHlo.after_append _ _ _)

/-- Through the five, from any contents `Z`: the rows read at the start indices `Z` holds, kept where the test
    `Z` holds is one and replaced by the least integer elsewhere. -/
theorem fill0_result (Z : Valuation τ sig (Elt F)) :
    after fill0 Z (Proc.devRef .tc main_v0)
      = select (broadcastInDim Offs ![0] b_Tok_Offs (Z (Proc.devRef .tc main_call0_v12)))
          (Host.gather rowDims (Z (Proc.devRef .tc main_arg2)) (Z (Proc.devRef .tc main_call0_v5)))
          (broadcastInDim Offs ![] b_Sc_Offs (constantI Sc 32 2147483648#32)) := by
  simp only [fill0]
  after_results_simp
  rfl

/-- The five write none of the three buffers they read from before them. -/
theorem fill0_keeps (Z : Valuation τ sig (Elt F)) (b : Ref sig .tc)
    (hb : b = main_call0_v12 ∨ b = main_call0_v5 ∨ b = main_arg2) :
    after fill0 Z (Proc.devRef .tc b) = Z (Proc.devRef .tc b) := by
  refine StableHlo.after_of_forall_not_mem (b := Proc.devRef .tc b) _ _ (List.forall_iff_forall_mem.mp ?_)
  simp only [fill0, List.Forall, nullary_writes, unary_writes, binary_writes, ternary_writes, Finset.mem_singleton]
  rcases hb with rfl | rfl | rfl
  all_goals
    repeat' apply And.intro
    all_goals exact StableHlo.devRef_ne_of_ne (by decide)

attribute [local irreducible] Host.reduce Host.gather Host.remsi in
set_option maxRecDepth 16384 in
/-- The stretch leaves the test of the moved ids, -/
theorem test0 (W : Valuation τ sig (Elt F)) :
    after hostOps0 W (Proc.devRef .tc main_call0_v12) = inVocab (W (Proc.devRef .tc main_arg4)) := by
  simp only [hostOps0]
  after_results_simp
  rfl

attribute [local irreducible] Host.reduce Host.gather Host.remsi in
set_option maxRecDepth 16384 in
/-- the moved ids as a column, -/
theorem col0 (W : Valuation τ sig (Elt F)) :
    after hostOps0 W (Proc.devRef .tc main_call0_v5) = tokCol (W (Proc.devRef .tc main_arg4)) := by
  simp only [hostOps0]
  after_results_simp
  rfl

/-- and the hash table as it was. -/
theorem table0 (W : Valuation τ sig (Elt F)) :
    after hostOps0 W (Proc.devRef .tc main_arg2) = W (Proc.devRef .tc main_arg2) := by
  refine StableHlo.after_of_forall_not_mem (b := Proc.devRef .tc main_arg2) _ _ (List.forall_iff_forall_mem.mp ?_)
  simp only [hostOps0, List.Forall, nullary_writes, unary_writes, binary_writes, ternary_writes, Finset.mem_singleton]
  repeat' apply And.intro
  all_goals exact StableHlo.devRef_ne_of_ne (by decide)

/-- So the first stretch leaves the first hash table's filled rows. -/
theorem rows0 (W : Valuation τ sig (Elt F)) :
    after hostOps0 W (Proc.devRef .tc main_v0)
      = rowsFilled (W (Proc.devRef .tc main_arg2)) (W (Proc.devRef .tc main_arg4)) := by
  have hm := test0 W
  have hw := col0 W
  have ha := table0 W
  rw [after_split0] at hm hw ha ⊢
  rw [fill0_keeps _ _ (.inl rfl)] at hm
  rw [fill0_keeps _ _ (.inr (.inl rfl))] at hw
  rw [fill0_keeps _ _ (.inr (.inr rfl))] at ha
  rw [fill0_result, hm, hw, ha]
  rfl

/-! ## The second hash table's stretch -/

/-- Its last five operations. -/
abbrev fill1 : List (HloOp τ sig (Elt F)) :=
  [ TRef.binary (.of main_arg3 : TRef sig ⟨S1000000x8, .i32⟩) (.of main_call1_v5 : TRef sig ⟨S1048576x1, .i32⟩) (.of main_call1_v13 : TRef sig ⟨S1048576x8, .i32⟩) (fun x i => Host.gather gather_S1000000x8_S1048576x1_S1048576x8_1_0_n_n_0_1_18 x i),
    TRef.unary (.of main_call1_v12 : TRef sig ⟨S1048576, .i1⟩) (.of main_call1_v14 : TRef sig ⟨S1048576x8, .i1⟩) (broadcastInDim S1048576x8 ![0] bcast_S1048576_S1048576x8_0),
    TRef.nullary (.of main_call1_c_4 : TRef sig ⟨S_, .i32⟩) (constantI S_ 32 2147483648#32),
    TRef.unary (.of main_call1_c_4 : TRef sig ⟨S_, .i32⟩) (.of main_call1_v15 : TRef sig ⟨S1048576x8, .i32⟩) (broadcastInDim S1048576x8 ![] bcast_S_S1048576x8),
    TRef.ternary (.of main_call1_v14 : TRef sig ⟨S1048576x8, .i1⟩) (.of main_call1_v13 : TRef sig ⟨S1048576x8, .i32⟩) (.of main_call1_v15 : TRef sig ⟨S1048576x8, .i32⟩) (.of main_v1 : TRef sig ⟨S1048576x8, .i32⟩) select ]

theorem split1 : (hostOps0_1 : List (HloOp τ sig (Elt F))) = hostOps0_1.take 18 ++ fill1 := rfl

theorem after_split1 (W : Valuation τ sig (Elt F)) : after hostOps0_1 W = after fill1 (after (hostOps0_1.take 18) W) :=
  (congrArg (fun l => after l W) split1).trans (StableHlo.after_append _ _ _)

theorem fill1_result (Z : Valuation τ sig (Elt F)) :
    after fill1 Z (Proc.devRef .tc main_v1)
      = select (broadcastInDim Offs ![0] b_Tok_Offs (Z (Proc.devRef .tc main_call1_v12)))
          (Host.gather rowDims (Z (Proc.devRef .tc main_arg3)) (Z (Proc.devRef .tc main_call1_v5)))
          (broadcastInDim Offs ![] b_Sc_Offs (constantI Sc 32 2147483648#32)) := by
  simp only [fill1]
  after_results_simp
  rfl

theorem fill1_keeps (Z : Valuation τ sig (Elt F)) (b : Ref sig .tc)
    (hb : b = main_call1_v12 ∨ b = main_call1_v5 ∨ b = main_arg3) :
    after fill1 Z (Proc.devRef .tc b) = Z (Proc.devRef .tc b) := by
  refine StableHlo.after_of_forall_not_mem (b := Proc.devRef .tc b) _ _ (List.forall_iff_forall_mem.mp ?_)
  simp only [fill1, List.Forall, nullary_writes, unary_writes, binary_writes, ternary_writes, Finset.mem_singleton]
  rcases hb with rfl | rfl | rfl
  all_goals
    repeat' apply And.intro
    all_goals exact StableHlo.devRef_ne_of_ne (by decide)

attribute [local irreducible] Host.reduce Host.gather Host.remsi in
set_option maxRecDepth 16384 in
theorem test1 (W : Valuation τ sig (Elt F)) :
    after hostOps0_1 W (Proc.devRef .tc main_call1_v12) = inVocab (W (Proc.devRef .tc main_arg4)) := by
  simp only [hostOps0_1]
  after_results_simp
  rfl

attribute [local irreducible] Host.reduce Host.gather Host.remsi in
set_option maxRecDepth 16384 in
theorem col1 (W : Valuation τ sig (Elt F)) :
    after hostOps0_1 W (Proc.devRef .tc main_call1_v5) = tokCol (W (Proc.devRef .tc main_arg4)) := by
  simp only [hostOps0_1]
  after_results_simp
  rfl

theorem table1 (W : Valuation τ sig (Elt F)) :
    after hostOps0_1 W (Proc.devRef .tc main_arg3) = W (Proc.devRef .tc main_arg3) := by
  refine StableHlo.after_of_forall_not_mem (b := Proc.devRef .tc main_arg3) _ _ (List.forall_iff_forall_mem.mp ?_)
  simp only [hostOps0_1, List.Forall, nullary_writes, unary_writes, binary_writes, ternary_writes, Finset.mem_singleton]
  repeat' apply And.intro
  all_goals exact StableHlo.devRef_ne_of_ne (by decide)

/-- The second stretch leaves the second hash table's filled rows. -/
theorem rows1 (W : Valuation τ sig (Elt F)) :
    after hostOps0_1 W (Proc.devRef .tc main_v1)
      = rowsFilled (W (Proc.devRef .tc main_arg3)) (W (Proc.devRef .tc main_arg4)) := by
  have hm := test1 W
  have hw := col1 W
  have ha := table1 W
  rw [after_split1] at hm hw ha ⊢
  rw [fill1_keeps _ _ (.inl rfl)] at hm
  rw [fill1_keeps _ _ (.inr (.inl rfl))] at hw
  rw [fill1_keeps _ _ (.inr (.inr rfl))] at ha
  rw [fill1_result, hm, hw, ha]
  rfl

end Cert.KernelIdeal.Hand

end
-- ==== Proof.KernelHost.lean ====
/-
  What the two input arrays of the pipelined call hold when it is entered: after the two stretches that
  leave the hash tables' filled rows, the remaining host operations turn each table's rows into cells of a
  float table, read the float table there, and reshape the [1048576, 8, 8] array read to [524288, 128].
  With every token id in range the filled rows are the clamped rows, and the reshaped sum of the two arrays
  is the reference's result.
-/
import proofs.«419762_j69054484185730_3_alg».proof.Proof.KernelRows
import proofs.«419762_j69054484185730_3_alg».proof.Proof.KernelValue
import proofs.«419762_j69054484185730_3_alg».proof.Proof.Range
import proofs.«419762_j69054484185730_3_alg».proof.Proof.Reshape

noncomputable section

namespace Cert.KernelIdeal.Hand

open Cert.KernelIdeal Cert.KernelIdeal.Gen Idealize.ShloMosaic Idealize.ShloMosaic.TcCoe Idealize.SL.Sem Idealize.ShloMosaic.StableHlo
open Cert.Chains

variable {F : FTy → Type} [FloatOps F]

/-- The host operations between the two hash-table stretches and the call. -/
abbrev rest : List (HloOp τ sig (Elt F)) := List.flatten [hostOps0_2, hostOps0_3, hostOps0_4, hostOps0_5, hostOps0_6]

/-- Everything before the call: the first stretch, the second, the rest. -/
theorem entry_eq (W : Valuation τ sig (Elt F)) :
    after (List.flatten [hostOps0, hostOps0_1, hostOps0_2, hostOps0_3, hostOps0_4, hostOps0_5, hostOps0_6]) W
      = after rest (after hostOps0_1 (after hostOps0 W)) := by
  simp only [rest, List.flatten_cons, List.flatten_nil, List.append_nil, StableHlo.after_append]

attribute [local irreducible] Host.reduce Host.gather Host.remsi in
set_option maxRecDepth 16384 in
set_option maxHeartbeats 1000000 in
/-- From any contents, the rest leaves in the call's first input the first float table at the cells of the rows
    it finds for the first hash table, reshaped; -/
theorem rest_first (W : Valuation τ sig (Elt F)) :
    after rest W (Proc.devRef .tc main_v29)
      = shapeCast S524288x128 (cells (W (Proc.devRef .tc main_arg0)) (W (Proc.devRef .tc main_v0))) shapeCasts_S1048576x8x8_S524288x128 := by
  simp only [rest, hostOps0_2, hostOps0_3, hostOps0_4, hostOps0_5, hostOps0_6, List.flatten_cons, List.flatten_nil, List.append_nil,
    List.cons_append, List.nil_append]
  after_results_simp
  rfl

attribute [local irreducible] Host.reduce Host.gather Host.remsi in
set_option maxRecDepth 16384 in
set_option maxHeartbeats 1000000 in
/-- and in its second input the second float table at the cells of the rows it finds for the second. -/
theorem rest_second (W : Valuation τ sig (Elt F)) :
    after rest W (Proc.devRef .tc main_v30)
      = shapeCast S524288x128 (cells (W (Proc.devRef .tc main_arg1)) (W (Proc.devRef .tc main_v1))) shapeCasts_S1048576x8x8_S524288x128 := by
  simp only [rest, hostOps0_2, hostOps0_3, hostOps0_4, hostOps0_5, hostOps0_6, List.flatten_cons, List.flatten_nil, List.append_nil,
    List.cons_append, List.nil_append]
  after_results_simp
  rfl

/-- The first stretch writes none of the float tables, the second hash table, the token ids. -/
theorem keeps0 (W : Valuation τ sig (Elt F)) (b : Ref sig .tc)
    (hb : b = main_arg0 ∨ b = main_arg1 ∨ b = main_arg3 ∨ b = main_arg4) :
    after hostOps0 W (Proc.devRef .tc b) = W (Proc.devRef .tc b) := by
  refine StableHlo.after_of_forall_not_mem (b := Proc.devRef .tc b) _ _ (List.forall_iff_forall_mem.mp ?_)
  simp only [hostOps0, List.Forall, nullary_writes, unary_writes, binary_writes, ternary_writes, Finset.mem_singleton]
  rcases hb with rfl | rfl | rfl | rfl
  all_goals
    repeat' apply And.intro
    all_goals exact StableHlo.devRef_ne_of_ne (by decide)

/-- The second stretch writes none of the float tables, nor the first table's rows. -/
theorem keeps1 (W : Valuation τ sig (Elt F)) (b : Ref sig .tc)
    (hb : b = main_arg0 ∨ b = main_arg1 ∨ b = main_v0) :
    after hostOps0_1 W (Proc.devRef .tc b) = W (Proc.devRef .tc b) := by
  refine StableHlo.after_of_forall_not_mem (b := Proc.devRef .tc b) _ _ (List.forall_iff_forall_mem.mp ?_)
  simp only [hostOps0_1, List.Forall, nullary_writes, unary_writes, binary_writes, ternary_writes, Finset.mem_singleton]
  rcases hb with rfl | rfl | rfl
  all_goals
    repeat' apply And.intro
    all_goals exact StableHlo.devRef_ne_of_ne (by decide)

variable (m : (ℓ : Loc nD τ sig) → Buf (Elt F) ℓ)

/-- The call's first input array. -/
theorem V_first (c : Dev nD) :
    (V m c main_v29 : S524288x128.Idx → Elt F .f32)
      = shapeCast S524288x128
          (cells (m ((c : Thread nD τ).loc main_arg0)) (rowsFilled (m ((c : Thread nD τ).loc main_arg2)) (m ((c : Thread nD τ).loc main_arg4))))
          shapeCasts_S1048576x8x8_S524288x128 := by
  dsimp only [V, V0]
  rw [entry_eq, rest_first, keeps1 _ _ (.inl rfl), keeps0 _ _ (.inl rfl), keeps1 _ _ (.inr (.inr rfl)), rows0]

/-- The call's second input array. -/
theorem V_second (c : Dev nD) :
    (V m c main_v30 : S524288x128.Idx → Elt F .f32)
      = shapeCast S524288x128
          (cells (m ((c : Thread nD τ).loc main_arg1)) (rowsFilled (m ((c : Thread nD τ).loc main_arg3)) (m ((c : Thread nD τ).loc main_arg4))))
          shapeCasts_S1048576x8x8_S524288x128 := by
  dsimp only [V, V0]
  rw [entry_eq, rest_second, keeps1 _ _ (.inr (.inl rfl)), keeps0 _ _ (.inr (.inl rfl)), rows1,
    keeps0 _ _ (.inr (.inr (.inl rfl))), keeps0 _ _ (.inr (.inr (.inr rfl)))]

/-- With every token id in range, the kernel's program's result is the reshape of the sum of the two float
    tables read at the cells of the two hash tables' CLAMPED rows. -/
theorem result_eq (c : Dev nD) (hx : InRange (m ((c : Thread nD τ).loc main_arg4))) :
    shapeCast S1048576x64 (sumOf (V m c main_v29) (V m c main_v30)) shapeCasts_S524288x128_S1048576x64
      = shapeCast S1048576x64
          (addf (cells (m ((c : Thread nD τ).loc main_arg0)) (rowsClamped (m ((c : Thread nD τ).loc main_arg2)) (m ((c : Thread nD τ).loc main_arg4))))
            (cells (m ((c : Thread nD τ).loc main_arg1)) (rowsClamped (m ((c : Thread nD τ).loc main_arg3)) (m ((c : Thread nD τ).loc main_arg4)))))
          (by decide) := by
  rw [V_first, V_second, rowsFilled_eq _ _ hx, rowsFilled_eq _ _ hx]
  exact sum_reshaped _ _ _ _ _

end Cert.KernelIdeal.Hand

end
-- ==== Proof.lean ====
/-
  The proof of `Cert.Claim`: the kernel's program and the reference compute the same [1048576, 64] array
  of extended reals whenever every token id lies in `[-1000000, 1000000)`.

  Both programs turn a token id into a row of eight offsets of a hash table (a negative id first moved up by
  the table's height), each offset into eight consecutive cells of a float table taken cyclically, read the two
  float tables there and add. They differ in two places. The kernel's program tests the moved id against the
  table's height and replaces the row of an id that fails the test by a constant, where the reference reads the
  nearest row: under the precondition no id fails the test, so the rows are the same. And the kernel's program adds
  the two [1048576, 8, 8] arrays of cells in a pipelined call, 64 blocks of 8192 rows of their [524288, 128]
  reshapes, and reshapes the sum to [1048576, 64], where the reference adds them as they are and reshapes once:
  a reshape keeps row-major positions, so both results read, at every index, the same two cells, and add them
  in the same order. No law of the extended reals is used beyond that.

  The two frames of the kernel's program are the generated ones. The reference's run is read back by hand from
  its operations written out in order, which also gives its frame. The idealization rewrote nothing.
-/
import proofs.«419762_j69054484185730_3_alg».proof.Defs
import proofs.«419762_j69054484185730_3_alg».proof.Proof.Gen.Kernel
import proofs.«419762_j69054484185730_3_alg».proof.Proof.Gen.Kernel.Skeleton
import proofs.«419762_j69054484185730_3_alg».proof.Proof.Gen.Kernel.Launch
import proofs.«419762_j69054484185730_3_alg».proof.Proof.Gen.Kernel.Points
import proofs.«419762_j69054484185730_3_alg».proof.Proof.Gen.Kernel.Frame
import proofs.«419762_j69054484185730_3_alg».proof.Proof.Gen.KernelIdeal
import proofs.«419762_j69054484185730_3_alg».proof.Proof.Gen.KernelIdeal.Skeleton
import proofs.«419762_j69054484185730_3_alg».proof.Proof.Gen.KernelIdeal.Launch
import proofs.«419762_j69054484185730_3_alg».proof.Proof.Gen.KernelIdeal.Points
import proofs.«419762_j69054484185730_3_alg».proof.Proof.Gen.KernelIdeal.Frame
import proofs.«419762_j69054484185730_3_alg».proof.Proof.Gen.ReferenceIdeal
import proofs.«419762_j69054484185730_3_alg».proof.Proof.Gen.Pre_finite_inputs
import proofs.«419762_j69054484185730_3_alg».proof.Proof.PreRange
import proofs.«419762_j69054484185730_3_alg».proof.Proof.Reshape
import proofs.«419762_j69054484185730_3_alg».proof.Proof.RefValue
import proofs.«419762_j69054484185730_3_alg».proof.Proof.KernelRun
import proofs.«419762_j69054484185730_3_alg».proof.Proof.KernelHost
import Idealize.ShloMosaic.Adequacy
import Idealize.ShloMosaic.Init

noncomputable section

namespace Cert.Proof

open Idealize.ShloMosaic Idealize.SL.Sem

/-- The reference's frame: its run with the result dropped. -/
theorem frame_ref : Cert.frame_ReferenceIdeal := fun m ρ _ =>
  (θ_run Cert.ReferenceIdeal.defs _ _).mono (fun _ h c => (h c).2) (Cert.ReferenceIdeal.Hand.run (F := Ideal) m ρ)

/-- Both programs end with the reference's function of the arguments in their result buffers. -/
theorem algebraic : Cert.algebraic_KernelIdeal_ReferenceIdeal := by
  intro m ρ m' ρ' hpre hagree
  refine ⟨fun c => Cert.ReferenceIdeal.Hand.result (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Hand.run (F := Ideal) m ρ)
    exact Cert.KernelIdeal.Hand.result_eq m c (Cert.Chains.inRange_of_pre _ _ _ _ _ (hpre c))
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
